-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S_ : Shape := ⟨0, ![]⟩
abbrev S64x64x2048 : Shape := ⟨3, ![64, 64, 2048]⟩
abbrev S1x1024x64 : Shape := ⟨3, ![1, 1024, 64]⟩
abbrev S1x64x2048 : Shape := ⟨3, ![1, 64, 2048]⟩
abbrev S1x2048x64 : Shape := ⟨3, ![1, 2048, 64]⟩
abbrev S1024x64 : Shape := ⟨2, ![1024, 64]⟩
abbrev S64x2048 : Shape := ⟨2, ![64, 2048]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 15
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S_, .f32⟩
  | .hbm, ⟨5, _⟩ => ⟨S64x2048x64, .f32⟩
  | .hbm, ⟨6, _⟩ => ⟨S64x2048x64, .f32⟩
  | .hbm, ⟨7, _⟩ => ⟨S64x2048x64, .bf16⟩
  | .hbm, ⟨8, _⟩ => ⟨S64x2048x64, .f32⟩
  | .hbm, ⟨9, _⟩ => ⟨S64x2048x64, .bf16⟩
  | .hbm, ⟨10, _⟩ => ⟨S64x2048x64, .f32⟩
  | .hbm, ⟨11, _⟩ => ⟨S64x2048x64, .bf16⟩
  | .hbm, ⟨12, _⟩ => ⟨S64x64x2048, .bf16⟩
  | .hbm, ⟨13, _⟩ => ⟨S64x2048x64, .f32⟩
  | .hbm, ⟨14, _⟩ => ⟨S4x16x2048x64, .f32⟩
  | .local _ .vmem, ⟨0, _⟩ => ⟨S1x1024x64, .bf16⟩
  | .local _ .vmem, ⟨1, _⟩ => ⟨S1x1024x64, .bf16⟩
  | .local _ .vmem, ⟨2, _⟩ => ⟨S1x64x2048, .bf16⟩
  | .local _ .vmem, ⟨3, _⟩ => ⟨S1x64x2048, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x1024x64, .f32⟩
  | .local _ .vmem, ⟨7, _⟩ => ⟨S1x1024x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x64_S64x2048x64 : S4x16x2048x64.ShapeCasts S64x2048x64
  bcast_S_S64x2048x64 : S_.BroadcastsInDim S64x2048x64 (![] : Fin 0 → Fin S64x2048x64.rank)
  bitsLt_bf16_f32 : FTy.bits .bf16 < FTy.bits .f32
  transposes_S64x2048x64_S64x64x2048_0_2_1 : S64x2048x64.Transposes [0, 2, 1] S64x64x2048
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  shapeCasts_S64x2048x64_S4x16x2048x64 : S64x2048x64.ShapeCasts S4x16x2048x64
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x2048x64.size a
  hwx0_0 : ∀ i : grid0.Coords, EltTy.bits .bf16 = 32 ∨ (Rect.block (s := S64x2048x64) S1x1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2048.size a ≤ S64x64x2048.size a
  hwx0_1 : ∀ i : grid0.Coords, EltTy.bits .bf16 = 32 ∨ (Rect.block (s := S64x64x2048) S1x64x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .bf16 = 32 ∨ (Rect.block (s := S64x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S64x2048x64.size a
  hwx0_3 : ∀ i : grid0.Coords, EltTy.bits .f32 = 32 ∨ (Rect.block (s := S64x2048x64) S1x1024x64.size (cc0_transform_3 i) (hinb0_3 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v3) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S_, .f32⟩
  | .hbm, ⟨4, _⟩ => ⟨S4x16x2048x64, .f32⟩
  | .hbm, ⟨5, _⟩ => ⟨S4x16x2048x64, .f32⟩
  | .hbm, ⟨6, _⟩ => ⟨S4x16x2048x2048, .f32⟩
  | .hbm, ⟨7, _⟩ => ⟨S_, .f32⟩
  | .hbm, ⟨8, _⟩ => ⟨S4x16x2048, .f32⟩
  | .hbm, ⟨9, _⟩ => ⟨S_, .f32⟩
  | .hbm, ⟨10, _⟩ => ⟨S4x16x2048, .f32⟩
  | .hbm, ⟨11, _⟩ => ⟨S4x16x2048, .f32⟩
  | .hbm, ⟨12, _⟩ => ⟨S4x16x2048x1, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x16x2048x64 : S_.BroadcastsInDim S4x16x2048x64 (![] : Fin 0 → Fin S4x16x2048x64.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.RowLaw.lean ====
/-
  One row of softmax attention on the extended reals.

  For a query row with real scores `s j` against the keys and a real value column `v j`, write
  `M = max_j s j`, `e j = exp (s j - M)` and `L = ∑ j, e j`.  The row's output can be normalised
  late, `(∑ j, e j * v j) / L`, or early, `∑ j, (e j / L) * v j`.  Every `e j` is a positive real, so
  `L` is a positive real and dividing by it is multiplying by the real `1 / L`, which distributes over
  the finite sum of reals: the two outputs are one number.  On the extended reals this needs the
  scores and the values to be real (products do not distribute over sums at the infinities), which
  is where finiteness of the inputs is used.
-/
import Idealize.ShloMosaic.PureOps.Ideal

noncomputable section

open scoped BigOperators

namespace Cert.Attend

open Idealize.ShloMosaic

/-- The coercion of the reals into the extended reals commutes with finite sums. -/
theorem coe_sum {ι : Type*} (t : Finset ι) (f : ι → ℝ) :
    ∑ j ∈ t, ((f j : ℝ) : EReal) = ((∑ j ∈ t, f j : ℝ) : EReal) := by
  classical
  induction t using Finset.induction_on with
  | empty => simp
  | insert a t ha ih => rw [Finset.sum_insert ha, Finset.sum_insert ha, ih, EReal.coe_add]

/-- The running maximum from `⊥` over a nonempty finite family of reals is a real. -/
theorem fold_max_real {ι : Type*} (t : Finset ι) (ht : t.Nonempty) (f : ι → ℝ) :
    ∃ μ : ℝ, t.fold max (⊥ : EReal) (fun j => ((f j : ℝ) : EReal)) = (μ : EReal) := by
  classical
  have key : ∀ u : Finset ι, (u = ∅ ∧ u.fold max (⊥ : EReal) (fun j => ((f j : ℝ) : EReal)) = ⊥)
      ∨ ∃ μ : ℝ, u.fold max (⊥ : EReal) (fun j => ((f j : ℝ) : EReal)) = (μ : EReal) := by
    intro u
    induction u using Finset.induction_on with
    | empty => exact Or.inl ⟨rfl, Finset.fold_empty⟩
    | insert a u ha ih =>
      refine Or.inr ?_
      rw [Finset.fold_insert ha]
      rcases ih with ⟨_, h⟩ | ⟨μ, h⟩
      · exact ⟨f a, by rw [h, max_bot_right]⟩
      · exact ⟨max (f a) μ, by rw [h]; exact (EReal.coe_strictMono.monotone.map_max).symm⟩
  rcases key t with ⟨h, _⟩ | h
  · exact absurd h ht.ne_empty
  · exact h

/-- Late normalisation: the weighted sum of the values, then one division by the row's total weight. -/
def late {ι : Type*} [Fintype ι] (s v : ι → EReal) : EReal :=
  Ideal.div (∑ j, Ideal.exp (s j - Finset.univ.fold max ⊥ s) * v j)
    (∑ j, Ideal.exp (s j - Finset.univ.fold max ⊥ s))

/-- Early normalisation: each weight divided by the row's total weight, then the weighted sum. -/
def early {ι : Type*} [Fintype ι] (s v : ι → EReal) : EReal :=
  ∑ j, Ideal.div (Ideal.exp (s j - Finset.univ.fold max ⊥ s))
    (∑ j', Ideal.exp (s j' - Finset.univ.fold max ⊥ s)) * v j

/-- For real scores and real values over a nonempty index set the two normalisations agree. -/
theorem late_eq_early {ι : Type*} [Fintype ι] [Nonempty ι] (s v : ι → ℝ) :
    late (fun j => ((s j : ℝ) : EReal)) (fun j => ((v j : ℝ) : EReal))
      = early (fun j => ((s j : ℝ) : EReal)) (fun j => ((v j : ℝ) : EReal)) := by
  obtain ⟨μ, hμ⟩ := fold_max_real (Finset.univ : Finset ι) Finset.univ_nonempty s
  unfold late early
  rw [hμ]
  have he : ∀ j, Ideal.exp (((s j : ℝ) : EReal) - (μ : EReal)) = ((Real.exp (s j - μ) : ℝ) : EReal) := fun j => by
    rw [← EReal.coe_sub]; rfl
  simp only [he]
  have hL : (∑ j, Real.exp (s j - μ)) ≠ 0 :=
    (Finset.sum_pos (fun j _ => Real.exp_pos _) Finset.univ_nonempty).ne'
  rw [coe_sum, Ideal.div_coe hL]
  simp only [Ideal.div_coe hL, ← EReal.coe_mul]
  rw [coe_sum, coe_sum, ← EReal.coe_mul, Finset.sum_mul]
  refine congrArg _ (Finset.sum_congr rfl fun j _ => ?_)
  ring

end Cert.Attend

end
-- ==== Proof.Payload.lean ====
/-
  The kernel body's arithmetic, read at one element.

  At a grid point the body holds a block of 1024 query rows `x0` (already scaled), the 64 × 2048 transposed
  keys `x1` and the 2048 value rows `x2` of one head.  It forms the scores `s r j = ∑ e, x0 r e * x1 e j`, the
  weights `exp (s r j - max_j s r j)`, and stores `(∑ j, w r j * x2 j d) / ∑ j, w r j`: the row's attention
  output normalised after the weighted sum (`Cert.Attend.late`).  Changes of float format are the identity
  on the extended reals, and the reshapes only add or drop the block's leading unit axis.
-/
import proofs.«428436_j6734508720466_3_alg».proof.Proof.Gen.KernelIdeal.Skeleton
import proofs.«428436_j6734508720466_3_alg».proof.Proof.RowLaw
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The three stages of the body -/

/-- The block of scores: query rows times transposed keys, into a zero accumulator. -/
def scores (x0 : FVec Ideal S1x1024x64 .bf16) (x1 : FVec Ideal S1x64x2048 .bf16) : FVec Ideal S1024x2048 .f32 :=
  matmul dot_S1024x64_S64x2048_S1024x2048_1_0_0_1_n_n none
    (shapeCast S1024x64 x0 shapeCasts_S1x1024x64_S1024x64) (shapeCast S64x2048 x1 shapeCasts_S1x64x2048_S64x2048)
    (constant S1024x2048 .f32 0x00000000#32)

/-- The row maxima of a block of scores, from `-∞`. -/
def rowMax (s : FVec Ideal S1024x2048 .f32) : FVec Ideal S1024 .f32 :=
  multiReduction .maximumf [1] S1024 s 0xFF800000#32 reduces_S1024x2048_S1024 (.inl rfl) rfl

/-- The weights: the exponential of each score less its row's maximum. -/
def weights (s : FVec Ideal S1024x2048 .f32) : FVec Ideal S1024x2048 .f32 :=
  exp (subf s (broadcastTo S1024x2048 (shapeCast S1024x1 (rowMax s) shapeCasts_S1024_S1024x1) broadcasts_S1024x1_S1024x2048))

/-- The row totals of a block of weights. -/
def rowSum (w : FVec Ideal S1024x2048 .f32) : FVec Ideal S1024 .f32 :=
  multiReduction .add [1] S1024 w 0x00000000#32 reduces_S1024x2048_S1024 (.inl rfl) rfl

/-- Weights times values, into a zero accumulator. -/
def weighted (w : FVec Ideal S1024x2048 .f32) (x2 : FVec Ideal S1x2048x64 .bf16) : FVec Ideal S1024x64 .f32 :=
  matmul dot_S1024x2048_S2048x64_S1024x64_1_0_0_1_n_n none (truncf .bf16 w bitsLt_bf16_f32)
    (shapeCast S2048x64 x2 shapeCasts_S1x2048x64_S2048x64) (constant S1024x64 .f32 0x00000000#32)

/-- The stored block: weights times values, each row divided by its total. -/
def outBlock (w : FVec Ideal S1024x2048 .f32) (x2 : FVec Ideal S1x2048x64 .bf16) : FVec Ideal S1x1024x64 .f32 :=
  shapeCast S1x1024x64
    (divf (weighted w x2)
      (broadcastTo S1024x64 (shapeCast S1024x1 (rowSum w) shapeCasts_S1024_S1024x1) broadcasts_S1024x1_S1024x64))
    shapeCasts_S1024x64_S1x1024x64

/-- The body's one stored value is those stages composed. -/
theorem pay_eq (x0 : FVec Ideal S1x1024x64 .bf16) (x1 : FVec Ideal S1x64x2048 .bf16) (x2 : FVec Ideal S1x2048x64 .bf16) :
    k0_pay1 (F := Ideal) x0 x1 x2 = outBlock (weights (scores x0 x1)) x2 := rfl

/-! ## Layout steps at an index -/

/-- Dropping the leading unit axis of a block: element `(r, e)` is element `(0, r, e)`. -/
theorem drop_unit {n0 n1 : Nat} (x : (⟨3, ![1, n0, n1]⟩ : Shape).Idx → EReal)
    (h : (⟨3, ![1, n0, n1]⟩ : Shape).ShapeCasts ⟨2, ![n0, n1]⟩) (r : Fin n0) (e : Fin n1) :
    shapeCast ⟨2, ![n0, n1]⟩ x h (ix2 r e) = x (ix3 (0 : Fin 1) r e) :=
  shapeCast_apply x h (ix2 r e) (ix3 (0 : Fin 1) r e) (by
    rw [Shape.rowMajor_val_three, Shape.rowMajor_val_two]
    show (0 * n0 + r.val) * n1 + e.val = r.val * n1 + e.val
    simp)

/-- Adding a leading unit axis: element `(z, r, e)` of the block is element `(r, e)`. -/
theorem add_unit {n0 n1 : Nat} (x : (⟨2, ![n0, n1]⟩ : Shape).Idx → EReal)
    (h : (⟨2, ![n0, n1]⟩ : Shape).ShapeCasts ⟨3, ![1, n0, n1]⟩) (z : Fin 1) (r : Fin n0) (e : Fin n1) :
    shapeCast ⟨3, ![1, n0, n1]⟩ x h (ix3 z r e) = x (ix2 r e) :=
  shapeCast_apply x h (ix3 z r e) (ix2 r e) (by
    rw [Shape.rowMajor_val_three, Shape.rowMajor_val_two]
    show r.val * n1 + e.val = (z.val * n0 + r.val) * n1 + e.val
    have hz : z.val = 0 := by have := z.isLt; omega
    rw [hz]; simp)

/-- A per-row quantity kept as a column and broadcast along the row: element `(r, c)` is the row's entry. -/
theorem column_bcast {n0 n1 : Nat} (hn0 : n0 ≠ 1) (x : (⟨1, ![n0]⟩ : Shape).Idx → EReal)
    (h : (⟨1, ![n0]⟩ : Shape).ShapeCasts ⟨2, ![n0, 1]⟩) (hb : (⟨2, ![n0, 1]⟩ : Shape).Broadcasts ⟨2, ![n0, n1]⟩)
    (r : Fin n0) (c : Fin n1) :
    broadcastTo ⟨2, ![n0, n1]⟩ (shapeCast ⟨2, ![n0, 1]⟩ x h) hb (ix2 r c) = x (ix1 r) := by
  refine (broadcastTo_apply (shapeCast ⟨2, ![n0, 1]⟩ x h) hb (ix2 r c) (ix2 r (0 : Fin 1)) (fun a => ?_)).trans ?_
  · match a with
    | ⟨0, _⟩ => show r.val = if n0 = 1 then 0 else r.val; rw [if_neg hn0]
    | ⟨1, _⟩ => show 0 = if (1 : Nat) = 1 then 0 else c.val; rw [if_pos rfl]
  · exact shapeCast_apply x h (ix2 r (0 : Fin 1)) (ix1 r) (by
      rw [Shape.rowMajor_val_one, Shape.rowMajor_val_two]
      show r.val = r.val * 1 + 0
      simp)

/-! ## The two products' operand indices, axis by axis -/

theorem lhs_scores_0 (i : S1024x2048.Idx) (q : dot_S1024x64_S64x2048_S1024x2048_1_0_0_1_n_n.contr.Idx) :
    (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl
theorem lhs_scores_1 (i : S1024x2048.Idx) (q : dot_S1024x64_S64x2048_S1024x2048_1_0_0_1_n_n.contr.Idx) :
    (dot_S1024x64_S64x2048_S1024x2048_1_0_0_1_n_n.lhsIdx i q 1).val = (q ⟨0, by decide⟩).val :=
  dot_S1024x64_S64x2048_S1024x2048_1_0_0_1_n_n.lhsIdx_val_of_single rfl i q
theorem rhs_scores_0 (i : S1024x2048.Idx) (q : dot_S1024x64_S64x2048_S1024x2048_1_0_0_1_n_n.contr.Idx) :
    (dot_S1024x64_S64x2048_S1024x2048_1_0_0_1_n_n.rhsIdx i q 0).val = (q ⟨0, by decide⟩).val :=
  dot_S1024x64_S64x2048_S1024x2048_1_0_0_1_n_n.rhsIdx_val_of_single rfl i q
theorem rhs_scores_1 (i : S1024x2048.Idx) (q : dot_S1024x64_S64x2048_S1024x2048_1_0_0_1_n_n.contr.Idx) :
    (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl

theorem lhs_weighted_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_weighted_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs_weighted_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs_weighted_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-! ## The stages at an index -/

/-- A score is the inner product of the query row with the key column. -/
theorem scores_apply (x0 : FVec Ideal S1x1024x64 .bf16) (x1 : FVec Ideal S1x64x2048 .bf16) (r : Fin 1024) (j : Fin 2048) :
    scores x0 x1 (ix2 r j) = ∑ e : Fin 64, x0 (ix3 (0 : Fin 1) r e) * x1 (ix3 (0 : Fin 1) e j) := by
  unfold scores
  refine (Ideal.matmul_constant_zero_apply dot_S1024x64_S64x2048_S1024x2048_1_0_0_1_n_n none _ _ (ix2 r j)).trans ?_
  rw [← Equiv.sum_comp (ValueIdx.contrEquiv1 dot_S1024x64_S64x2048_S1024x2048_1_0_0_1_n_n 64 rfl rfl).symm]
  refine Finset.sum_congr rfl fun e _ => ?_
  have hk := ValueIdx.contrEquiv1_symm_val dot_S1024x64_S64x2048_S1024x2048_1_0_0_1_n_n 64 rfl rfl e
  have el : dot_S1024x64_S64x2048_S1024x2048_1_0_0_1_n_n.lhsIdx (ix2 r j)
      ((ValueIdx.contrEquiv1 dot_S1024x64_S64x2048_S1024x2048_1_0_0_1_n_n 64 rfl rfl).symm e) = ix2 r e :=
    funext fun a => Fin.ext (by
      match a with
      | ⟨0, _⟩ => exact lhs_scores_0 _ _
      | ⟨1, _⟩ => exact (lhs_scores_1 _ _).trans hk)
  have er : dot_S1024x64_S64x2048_S1024x2048_1_0_0_1_n_n.rhsIdx (ix2 r j)
      ((ValueIdx.contrEquiv1 dot_S1024x64_S64x2048_S1024x2048_1_0_0_1_n_n 64 rfl rfl).symm e) = ix2 e j :=
    funext fun a => Fin.ext (by
      match a with
      | ⟨0, _⟩ => exact (rhs_scores_0 _ _).trans hk
      | ⟨1, _⟩ => exact rhs_scores_1 _ _)
  rw [el, er]
  rw [drop_unit, drop_unit]

/-- A row's maximum is the running maximum of its scores from `⊥`. -/
theorem rowMax_apply (s : FVec Ideal S1024x2048 .f32) (r : Fin 1024) :
    rowMax s (ix1 r) = (Finset.univ : Finset (Fin 2048)).fold max ⊥ (fun j => s (ix2 r j)) := by
  unfold rowMax
  refine (Ideal.multiReduction_maximumf_single s 0xFF800000#32 reduces_S1024x2048_S1024 (.inl rfl) rfl (ix1 r)).trans ?_
  have hb : (FloatOps.ofBits .f32 0xFF800000#32 : Ideal .f32) = ⊥ := by
    show Ideal.ofBits .f32 0xFF800000#32 = ⊥
    simp [Ideal.ofBits, Ideal.ieee]
  rw [hb]
  refine congrArg (Finset.fold max ⊥ · Finset.univ) (funext fun j => congrArg s ?_)
  funext a
  match a with
  | ⟨0, _⟩ => rfl
  | ⟨1, _⟩ => rfl

/-- A weight is the exponential of the score less the row's maximum. -/
theorem weights_apply (s : FVec Ideal S1024x2048 .f32) (r : Fin 1024) (j : Fin 2048) :
    weights s (ix2 r j) = Ideal.exp (s (ix2 r j) - (Finset.univ : Finset (Fin 2048)).fold max ⊥ (fun j' => s (ix2 r j'))) := by
  unfold weights
  show Ideal.exp (s (ix2 r j) - broadcastTo S1024x2048 (shapeCast S1024x1 (rowMax s) shapeCasts_S1024_S1024x1) broadcasts_S1024x1_S1024x2048 (ix2 r j)) = _
  rw [column_bcast (by decide), rowMax_apply]

/-- A row's total weight. -/
theorem rowSum_apply (w : FVec Ideal S1024x2048 .f32) (r : Fin 1024) :
    rowSum w (ix1 r) = ∑ j : Fin 2048, w (ix2 r j) := by
  unfold rowSum
  refine (Ideal.multiReduction_add_single w 0x00000000#32 reduces_S1024x2048_S1024 (.inl rfl) rfl (ix1 r)).trans ?_
  refine Finset.sum_congr rfl fun j _ => congrArg w ?_
  funext a
  match a with
  | ⟨0, _⟩ => rfl
  | ⟨1, _⟩ => rfl

/-- The weighted sum of a value column. -/
theorem weighted_apply (w : FVec Ideal S1024x2048 .f32) (x2 : FVec Ideal S1x2048x64 .bf16) (r : Fin 1024) (d : Fin 64) :
    weighted w x2 (ix2 r d) = ∑ j : Fin 2048, w (ix2 r j) * x2 (ix3 (0 : Fin 1) j d) := by
  unfold weighted
  refine (Ideal.matmul_constant_zero_apply dot_S1024x2048_S2048x64_S1024x64_1_0_0_1_n_n none _ _ (ix2 r d)).trans ?_
  rw [← Equiv.sum_comp (ValueIdx.contrEquiv1 dot_S1024x2048_S2048x64_S1024x64_1_0_0_1_n_n 2048 rfl rfl).symm]
  refine Finset.sum_congr rfl fun e _ => ?_
  have hk := ValueIdx.contrEquiv1_symm_val dot_S1024x2048_S2048x64_S1024x64_1_0_0_1_n_n 2048 rfl rfl e
  have el : dot_S1024x2048_S2048x64_S1024x64_1_0_0_1_n_n.lhsIdx (ix2 r d)
      ((ValueIdx.contrEquiv1 dot_S1024x2048_S2048x64_S1024x64_1_0_0_1_n_n 2048 rfl rfl).symm e) = ix2 r e :=
    funext fun a => Fin.ext (by
      match a with
      | ⟨0, _⟩ => exact lhs_weighted_0 _ _
      | ⟨1, _⟩ => exact (lhs_weighted_1 _ _).trans hk)
  have er : dot_S1024x2048_S2048x64_S1024x64_1_0_0_1_n_n.rhsIdx (ix2 r d)
      ((ValueIdx.contrEquiv1 dot_S1024x2048_S2048x64_S1024x64_1_0_0_1_n_n 2048 rfl rfl).symm e) = ix2 e d :=
    funext fun a => Fin.ext (by
      match a with
      | ⟨0, _⟩ => exact (rhs_weighted_0 _ _).trans hk
      | ⟨1, _⟩ => exact rhs_weighted_1 _ _)
  rw [el, er]
  rw [drop_unit]
  rfl

/-- The stored block at an element: the row's weighted sum of the value column over the row's total weight. -/
theorem outBlock_apply (w : FVec Ideal S1024x2048 .f32) (x2 : FVec Ideal S1x2048x64 .bf16) (z : Fin 1) (r : Fin 1024) (d : Fin 64) :
    outBlock w x2 (ix3 z r d)
      = Ideal.div (∑ j : Fin 2048, w (ix2 r j) * x2 (ix3 (0 : Fin 1) j d)) (∑ j : Fin 2048, w (ix2 r j)) := by
  unfold outBlock
  rw [add_unit]
  show Ideal.div (weighted w x2 (ix2 r d))
    (broadcastTo S1024x64 (shapeCast S1024x1 (rowSum w) shapeCasts_S1024_S1024x1) broadcasts_S1024x1_S1024x64 (ix2 r d)) = _
  rw [column_bcast (by decide), weighted_apply, rowSum_apply]

/-- THE BODY AT AN ELEMENT: late-normalised attention of the query row's scores against the keys, over the value column. -/
theorem pay_apply (x0 : FVec Ideal S1x1024x64 .bf16) (x1 : FVec Ideal S1x64x2048 .bf16) (x2 : FVec Ideal S1x2048x64 .bf16)
    (z : Fin 1) (r : Fin 1024) (d : Fin 64) :
    k0_pay1 (F := Ideal) x0 x1 x2 (ix3 z r d)
      = Cert.Attend.late (fun j : Fin 2048 => ∑ e : Fin 64, x0 (ix3 (0 : Fin 1) r e) * x1 (ix3 (0 : Fin 1) e j))
          (fun j : Fin 2048 => x2 (ix3 (0 : Fin 1) j d)) := by
  rw [pay_eq, outBlock_apply]
  unfold Cert.Attend.late
  simp only [weights_apply, scores_apply]

end Cert.KernelIdeal.Body

end
-- ==== Proof.KernelArray.lean ====
/-
  From blocks to the array: what the region leaves in its output array.

  The grid has 64 × 2 points; point `(b, h)` reads query rows `1024 h … 1024 h + 1023` of head `b`, all of head
  `b`'s transposed keys and values, and writes rows `1024 h …` of head `b` of the output.  So every written block
  is the same function of the three arrays the region finds — late-normalised attention, row by row — read
  through the block's rectangle, and the 128 blocks tile the output array: the array ends holding that function.
-/
import proofs.«428436_j6734508720466_3_alg».proof.Proof.Gen.KernelIdeal.Frame
import proofs.«428436_j6734508720466_3_alg».proof.Proof.Payload
import Idealize.ShloMosaic.Lib.Pipeline.Value

set_option maxRecDepth 16384

noncomputable section

open scoped BigOperators

namespace Cert.KernelIdeal.Arr

open Cert.KernelIdeal Cert.KernelIdeal.Gen Idealize.ShloMosaic Idealize.ShloMosaic.TcCoe Idealize.ShloMosaic.ValueIdx
open Idealize.SL.Sem
open Idealize.ShloMosaic.Pipeline (Dat)

/-! ## The function the output array holds -/

/-- Attention of query row `r` of head `b` against that head's transposed keys, over column `d` of its values. -/
def headRow (Q : S64x2048x64.Idx → EReal) (KT : S64x64x2048.Idx → EReal) (V3 : S64x2048x64.Idx → EReal)
    (b : Fin 64) (r : Fin 2048) (d : Fin 64) : EReal :=
  Cert.Attend.late (fun j : Fin 2048 => ∑ e : Fin 64, Q (ix3 b r e) * KT (ix3 b e j)) (fun j : Fin 2048 => V3 (ix3 b j d))

/-- The same as a function of the output array's index. -/
def heads (Q : S64x2048x64.Idx → EReal) (KT : S64x64x2048.Idx → EReal) (V3 : S64x2048x64.Idx → EReal) :
    S64x2048x64.Idx → EReal :=
  fun i => headRow Q KT V3 ⟨(i 0).val, (i 0).isLt⟩ ⟨(i 1).val, (i 1).isLt⟩ ⟨(i 2).val, (i 2).isLt⟩

theorem heads_of_coords (Q : S64x2048x64.Idx → EReal) (KT : S64x64x2048.Idx → EReal) (V3 : S64x2048x64.Idx → EReal)
    (b : Fin 64) (r : Fin 2048) (d : Fin 64) (i : S64x2048x64.Idx)
    (h0 : (i 0).val = b.val) (h1 : (i 1).val = r.val) (h2 : (i 2).val = d.val) :
    heads Q KT V3 i = headRow Q KT V3 b r d := by
  unfold heads
  congr 1 <;> exact Fin.ext (by assumption)

/-! ## One block -/

/-- The body's stored block at an element, when its three input blocks are rows of head `b`. -/
theorem block_elem (Q : S64x2048x64.Idx → EReal) (KT : S64x64x2048.Idx → EReal) (V3 : S64x2048x64.Idx → EReal)
    (x0 : FVec Ideal S1x1024x64 .bf16) (x1 : FVec Ideal S1x64x2048 .bf16) (x2 : FVec Ideal S1x2048x64 .bf16)
    (b : Fin 64) (row : Fin 1024 → Fin 2048)
    (h0 : ∀ (r : Fin 1024) (e : Fin 64), x0 (ix3 (0 : Fin 1) r e) = Q (ix3 b (row r) e))
    (h1 : ∀ (e : Fin 64) (j : Fin 2048), x1 (ix3 (0 : Fin 1) e j) = KT (ix3 b e j))
    (h2 : ∀ (j : Fin 2048) (d : Fin 64), x2 (ix3 (0 : Fin 1) j d) = V3 (ix3 b j d))
    (y : S1x1024x64.Idx) :
    k0_pay1 (F := Ideal) x0 x1 x2 y = headRow Q KT V3 b (row (y 1)) (y 2) := by
  obtain ⟨z, r, d, rfl⟩ : ∃ (z : Fin 1) (r : Fin 1024) (d : Fin 64), y = ix3 z r d := ⟨y 0, y 1, y 2, eq_ix3 y⟩
  rw [Cert.KernelIdeal.Body.pay_apply]
  unfold headRow
  simp only [h0, h1, h2]

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps, decided over the 128 grid points: the query window and the output window move together,
    the key and value windows follow the head only, and the block indices stay in their ranges. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 63 ∧ win0_3.index t (1 : Fin 3) ≤ 1 ∧ win0_3.index t (2 : Fin 3) = 0 :=
  (by decide +kernel : ∀ t : Fin grid0.N, _)

/-- Every (head, row-half) block of the output is some point's. -/
theorem idx_onto : ∀ (q0 : Fin 64) (q1 : Fin 2), ∃ t : Fin cfg0.N, win0_3.index t = ![q0.val, q1.val, 0] :=
  (by decide +kernel : ∀ (q0 : Fin 64) (q1 : Fin 2), ∃ t : Fin grid0.N, win0_3.index t = ![q0.val, q1.val, 0])

/-- WHAT POINT `t` WRITES BACK is block `t` of `heads` of the arrays the region finds. -/
theorem flushed_eq (c : Dev nD) (t : Fin cfg0.N) :
    (dats m 0 c).flushed 3 t = ((cfg0.win 3).blk t).view.read (Elt Ideal)
      (heads (V m c main_v3) (V m c main_v8) (V m c main_v7)) := by
  show (cfg0.win 3).cut (grid0.coords t) ((dats m 0 c).after 3 t) = _
  rw [after0_3]
  unfold out0_3
  rw [View.canon_unit_zero hz]
  simp only [View.ld_unit_zero (S := S1x1024x64) hz, View.ld_unit_zero (S := S1x64x2048) hz, View.ld_unit_zero (S := S1x2048x64) hz]
  obtain ⟨e00, e01, e02, e10, e11, e12, e20, e21, e22, b0, b1, b2⟩ := idx_facts t
  funext y
  have hy0 : (y 0).val = 0 := by have : (y 0).val < 1 := (y 0).isLt; omega
  have hy1 : (y 1).val < 1024 := (y 1).isLt
  refine (block_elem (V m c main_v3) (V m c main_v8) (V m c main_v7) (iblk m c 0 t) (iblk m c 1 t) (iblk m c 2 t)
    ⟨win0_3.index t (0 : Fin 3), by omega⟩ (fun r => ⟨win0_3.index t (1 : Fin 3) * 1024 + r.val, by have := r.isLt; omega⟩)
    (fun r e => ?_) (fun e j => ?_) (fun j d => ?_) y).trans ?_
  · show V m c main_v3 (((cfg0.win 0).blk t).view.emb (ix3 (0 : Fin 1) r e)) = V m c main_v3 _
    refine congrArg _ (funext fun a => Fin.ext ?_)
    match a with
    | ⟨0, _⟩ => show win0_0.index t (0 : Fin 3) * 1 + 1 * 0 = win0_3.index t (0 : Fin 3); omega
    | ⟨1, _⟩ => show win0_0.index t (1 : Fin 3) * 1024 + 1 * r.val = win0_3.index t (1 : Fin 3) * 1024 + r.val; omega
    | ⟨2, _⟩ => show win0_0.index t (2 : Fin 3) * 64 + 1 * e.val = e.val; omega
  · show V m c main_v8 (((cfg0.win 1).blk t).view.emb (ix3 (0 : Fin 1) e j)) = V m c main_v8 _
    refine congrArg _ (funext fun a => Fin.ext ?_)
    match a with
    | ⟨0, _⟩ => show win0_1.index t (0 : Fin 3) * 1 + 1 * 0 = win0_3.index t (0 : Fin 3); omega
    | ⟨1, _⟩ => show win0_1.index t (1 : Fin 3) * 64 + 1 * e.val = e.val; omega
    | ⟨2, _⟩ => show win0_1.index t (2 : Fin 3) * 2048 + 1 * j.val = j.val; omega
  · show V m c main_v7 (((cfg0.win 2).blk t).view.emb (ix3 (0 : Fin 1) j d)) = V m c main_v7 _
    refine congrArg _ (funext fun a => Fin.ext ?_)
    match a with
    | ⟨0, _⟩ => show win0_2.index t (0 : Fin 3) * 1 + 1 * 0 = win0_3.index t (0 : Fin 3); omega
    | ⟨1, _⟩ => show win0_2.index t (1 : Fin 3) * 2048 + 1 * j.val = j.val; omega
    | ⟨2, _⟩ => show win0_2.index t (2 : Fin 3) * 64 + 1 * d.val = d.val; omega
  · refine (heads_of_coords _ _ _ _ _ _ (((cfg0.win 3).blk t).view.emb y) ?_ ?_ ?_).symm
    · show win0_3.index t (0 : Fin 3) * 1 + 1 * (y 0).val = win0_3.index t (0 : Fin 3); omega
    · show win0_3.index t (1 : Fin 3) * 1024 + 1 * (y 1).val = win0_3.index t (1 : Fin 3) * 1024 + (y 1).val; omega
    · show win0_3.index t (2 : Fin 3) * 64 + 1 * (y 2).val = (y 2).val; omega

/-- An index of the output array is in point `t`'s block iff each coordinate is in the block's range on its axis. -/
theorem mem_blk (t : Fin cfg0.N) (i : S64x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v9).slice (win0_3.rect t)).set ↔ _
  rw [View.set_slice_whole, Rect.mem_set_unit]
  exact Iff.rfl

/-- The 128 blocks tile the output array. -/
theorem cover (i : S64x2048x64.Idx) :
    ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- THE OUTPUT ARRAY after the region: `heads` of the arrays the region finds. -/
theorem final (c : Dev nD) :
    (dats m 0 c).arrAt 3 cfg0.N = heads (V m c main_v3) (V m c main_v8) (V m c main_v7) :=
  (dats m 0 c).arrAt_eq_of_cover 3 (heads (V m c main_v3) (V m c main_v8) (V m c main_v7))
    (fun t _ => flushed_eq m c t) cover

end Cert.KernelIdeal.Arr

end
-- ==== Proof.KernelWhole.lean ====
/-
  The kernel's program around its region, and its run read as one function of the arguments.

  Before the region the host merges the batch and head axes (head `16 b + h`), scales the queries by `2⁻³`,
  and transposes the keys; the changes of float format are the identity on the extended reals.  After the
  region it splits the merged axis again.  So element `(b, h, i, d)` of the result is the late-normalised
  attention of query row `i` of head `(b, h)`, with scores `∑ e, (q i e * 2⁻³) * k j e`, over column `d`
  of that head's values.
-/
import proofs.«428436_j6734508720466_3_alg».proof.Proof.KernelArray
import Idealize.ShloMosaic.Lib.StableHlo.Run
import Idealize.ShloMosaic.Lib.Tactic

set_option maxRecDepth 16384

noncomputable section

open scoped BigOperators

namespace Cert.KernelIdeal.Whole

open Cert.KernelIdeal Cert.KernelIdeal.Gen Cert.KernelIdeal.Arr
open Idealize.ShloMosaic Idealize.ShloMosaic.TcCoe Idealize.ShloMosaic.ValueIdx
open Idealize.SL.Sem Idealize.ShloMosaic.StableHlo
open Idealize.ShloMosaic.Pipeline (Dat)

/-- The scale `2⁻³` as the kernel's literal denotes it. -/
abbrev scale : EReal := Ideal.ofBits .f32 0x3E000000#32

/-- The kernel's result at `(b, h, i, d)` as a function of the three arguments. -/
def kerRow (q k v : S4x16x2048x64.Idx → EReal) (b : Fin 4) (h : Fin 16) (i : Fin 2048) (d : Fin 64) : EReal :=
  Cert.Attend.late (fun j : Fin 2048 => ∑ e : Fin 64, (q (ix4 b h i e) * scale) * k (ix4 b h j e))
    (fun j : Fin 2048 => v (ix4 b h j d))

/-- The same as a function of the result array's index. -/
def kerOut (q k v : S4x16x2048x64.Idx → EReal) : S4x16x2048x64.Idx → EReal :=
  fun i => kerRow q k v ⟨(i 0).val, (i 0).isLt⟩ ⟨(i 1).val, (i 1).isLt⟩ ⟨(i 2).val, (i 2).isLt⟩ ⟨(i 3).val, (i 3).isLt⟩

variable (m : (ℓ : Loc nD τ sig) → Buf (Elt Ideal) ℓ) (ρ : Dev nD → PrngReg)

/-- The three arguments on core `c`, as launched: queries, keys, values. -/
abbrev qArr (c : Dev nD) : S4x16x2048x64.Idx → EReal := m ((c : Thread nD τ).loc main_arg0)
abbrev kArr (c : Dev nD) : S4x16x2048x64.Idx → EReal := m ((c : Thread nD τ).loc main_arg1)
abbrev vArr (c : Dev nD) : S4x16x2048x64.Idx → EReal := m ((c : Thread nD τ).loc main_arg2)

/-! ## The three arrays the region finds -/

theorem V_v3 (c : Dev nD) :
    (V m c main_v3 : S64x2048x64.Idx → EReal)
      = truncf .bf16 (mulf (shapeCast S64x2048x64 (qArr m c) shapeCasts_S4x16x2048x64_S64x2048x64)
          (broadcastInDim S64x2048x64 ![] bcast_S_S64x2048x64 (constant (F := Ideal) S_ .f32 0x3E000000#32))) bitsLt_bf16_f32 := by
  show StableHlo.after hostOps0 (fun b => m (c, b)) (Proc.devRef .tc main_v3) = _
  after_results
  rfl

theorem V_v8 (c : Dev nD) :
    (V m c main_v8 : S64x64x2048.Idx → EReal)
      = transpose S64x64x2048 [0, 2, 1]
          (truncf (F := Ideal) .bf16 (shapeCast S64x2048x64 (kArr m c) shapeCasts_S4x16x2048x64_S64x2048x64) bitsLt_bf16_f32)
          transposes_S64x2048x64_S64x64x2048_0_2_1 := by
  show StableHlo.after hostOps0 (fun b => m (c, b)) (Proc.devRef .tc main_v8) = _
  after_results
  rfl

theorem V_v7 (c : Dev nD) :
    (V m c main_v7 : S64x2048x64.Idx → EReal)
      = truncf (F := Ideal) .bf16 (shapeCast S64x2048x64 (vArr m c) shapeCasts_S4x16x2048x64_S64x2048x64) bitsLt_bf16_f32 := by
  show StableHlo.after hostOps0 (fun b => m (c, b)) (Proc.devRef .tc main_v7) = _
  after_results
  rfl

/-- Merging the batch and head axes: element `(16 b + h, r, e)` of the merged array is element `(b, h, r, e)`. -/
theorem merge_apply (x : S4x16x2048x64.Idx → EReal) (hc : S4x16x2048x64.ShapeCasts S64x2048x64)
    (bh : Fin 64) (b : Fin 4) (h : Fin 16) (hbh : bh.val = b.val * 16 + h.val) (r : Fin 2048) (e : Fin 64) :
    shapeCast S64x2048x64 x hc (ix3 bh r e) = x (ix4 b h r e) :=
  shapeCast_apply x hc (ix3 bh r e) (ix4 b h r e) (by
    rw [Shape.rowMajor_val_four, Shape.rowMajor_val_three]
    show ((b.val * 16 + h.val) * 2048 + r.val) * 64 + e.val = (bh.val * 2048 + r.val) * 64 + e.val
    rw [hbh])

/-- Splitting the merged axis: element `(b, h, r, e)` of the split array is element `(16 b + h, r, e)`. -/
theorem split_apply (x : S64x2048x64.Idx → EReal) (hc : S64x2048x64.ShapeCasts S4x16x2048x64)
    (bh : Fin 64) (b : Fin 4) (h : Fin 16) (hbh : bh.val = b.val * 16 + h.val) (r : Fin 2048) (e : Fin 64) :
    shapeCast S4x16x2048x64 x hc (ix4 b h r e) = x (ix3 bh r e) :=
  shapeCast_apply x hc (ix4 b h r e) (ix3 bh r e) (by
    rw [Shape.rowMajor_val_four, Shape.rowMajor_val_three]
    show (bh.val * 2048 + r.val) * 64 + e.val = ((b.val * 16 + h.val) * 2048 + r.val) * 64 + e.val
    rw [hbh])

/-- The scaled queries the region finds. -/
theorem V_v3_at (c : Dev nD) (bh : Fin 64) (b : Fin 4) (h : Fin 16) (hbh : bh.val = b.val * 16 + h.val) (r : Fin 2048) (e : Fin 64) :
    V m c main_v3 (ix3 bh r e) = qArr m c (ix4 b h r e) * scale := by
  rw [V_v3]
  show shapeCast S64x2048x64 (qArr m c) shapeCasts_S4x16x2048x64_S64x2048x64 (ix3 bh r e) * scale = _
  rw [merge_apply _ _ bh b h hbh]

/-- The transposed keys the region finds. -/
theorem V_v8_at (c : Dev nD) (bh : Fin 64) (b : Fin 4) (h : Fin 16) (hbh : bh.val = b.val * 16 + h.val) (e : Fin 64) (j : Fin 2048) :
    V m c main_v8 (ix3 bh e j) = kArr m c (ix4 b h j e) := by
  rw [V_v8]
  refine (transpose_apply [0, 2, 1] _ transposes_S64x2048x64_S64x64x2048_0_2_1 (ix3 bh e j) (ix3 bh j e) (fun a => ?_)).trans ?_
  · match a with
    | ⟨0, _⟩ => rfl
    | ⟨1, _⟩ => rfl
    | ⟨2, _⟩ => rfl
  · show shapeCast S64x2048x64 (kArr m c) shapeCasts_S4x16x2048x64_S64x2048x64 (ix3 bh j e) = _
    rw [merge_apply _ _ bh b h hbh]

/-- The values the region finds. -/
theorem V_v7_at (c : Dev nD) (bh : Fin 64) (b : Fin 4) (h : Fin 16) (hbh : bh.val = b.val * 16 + h.val) (j : Fin 2048) (d : Fin 64) :
    V m c main_v7 (ix3 bh j d) = vArr m c (ix4 b h j d) := by
  rw [V_v7]
  show shapeCast S64x2048x64 (vArr m c) shapeCasts_S4x16x2048x64_S64x2048x64 (ix3 bh j d) = _
  rw [merge_apply _ _ bh b h hbh]

/-! ## The result after the host tail -/

/-- The result buffer after the run: the region's output array with the merged axis split. -/
theorem tail_v10 (c : Dev nD) :
    Pipeline.afterTail₀ cfgs (dats m) 0 (V0 m) [hostOps1] c main_v10
      = shapeCast S4x16x2048x64 (heads (V m c main_v3) (V m c main_v8) (V m c main_v7)) shapeCasts_S64x2048x64_S4x16x2048x64 := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v9)
      = heads (V m c main_v3) (V m c main_v8) (V m c main_v7) :=
    (Pipeline.withArrays_arr spec0 launch0.win.arr_inj c _ _ 3).trans (final m c)
  funext i
  show shapeCast S4x16x2048x64 (Pipeline.withArrays (cfgs 0).spec c (V0 m c) (fun w => (dats m 0 c).arrAt w (cfgs 0).N) (Proc.devRef .tc main_v9)) shapeCasts_S64x2048x64_S4x16x2048x64 i = _
  rw [e]

/-- The result buffer after the run, as a function of the arguments. -/
theorem result_eq (c : Dev nD) :
    Pipeline.afterTail₀ cfgs (dats m) 0 (V0 m) [hostOps1] c main_v10
      = kerOut (qArr m c) (kArr m c) (vArr m c) := by
  rw [tail_v10]
  funext i
  obtain ⟨b, h, r, d, rfl⟩ : ∃ (b : Fin 4) (h : Fin 16) (r : Fin 2048) (d : Fin 64), i = ix4 b h r d := ⟨i 0, i 1, i 2, i 3, eq_ix4 i⟩
  have hlt : b.val * 16 + h.val < 64 := by have := b.isLt; have := h.isLt; omega
  rw [split_apply _ _ ⟨b.val * 16 + h.val, hlt⟩ b h rfl]
  show heads _ _ _ (ix3 ⟨b.val * 16 + h.val, hlt⟩ r d) = kerRow _ _ _ b h r d
  rw [heads_of_coords _ _ _ ⟨b.val * 16 + h.val, hlt⟩ r d _ rfl rfl rfl]
  unfold headRow kerRow
  simp only [V_v3_at m c ⟨b.val * 16 + h.val, hlt⟩ b h rfl, V_v8_at m c ⟨b.val * 16 + h.val, hlt⟩ b h rfl,
    V_v7_at m c ⟨b.val * 16 + h.val, hlt⟩ b h rfl]

/-! ## The run, read -/

/-- Every weakly fair execution of the idealized kernel's program terminates with its result buffer at `kerOut` of the
    arguments, the arguments unchanged. -/
theorem run : θ_run defs (onTc (τ := τ) (main (F := Ideal))) ⟨m, fun _ => 0, ρ⟩ fun r => ∀ c : Dev nD,
      r.2.mem ((c.tc : Thread nD τ).loc main_v10)
        = kerOut (qArr m c) (kArr m c) (vArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefRead.lean ====
/-
  The reference, read at one element.

  The reference scales the keys by `2⁻³`, takes scores `s i j = ∑ e, q i e * (k j e * 2⁻³)` per head, applies
  softmax along `j` (the exponential of the score less the row's maximum, divided by the row's total) and
  multiplies by the values: the attention output normalised BEFORE the weighted sum (`Cert.Attend.early`).
  Every stage is read at an index by the generated lemmas of the reference's run; the row maximum, a fold
  over the key axis, is read here, and the extra maximum with `-∞` that softmax takes is the identity.
-/
import proofs.«428436_j6734508720466_3_alg».proof.Proof.Gen.ReferenceIdeal.Read
import proofs.«428436_j6734508720466_3_alg».proof.Proof.RowLaw
import Idealize.ShloMosaic.PureOps.Reduce

noncomputable section

open scoped BigOperators

namespace Cert.ReferenceIdeal.Bridge

open Cert.ReferenceIdeal Cert.ReferenceIdeal.Gen Cert.ReferenceIdeal.Read Idealize.ShloMosaic Idealize.ShloMosaic.ValueIdx

/-- The scale `2⁻³` as the reference's literal denotes it. -/
abbrev scale : EReal := Ideal.ofBits .f32 0x3E000000#32

/-- The reference's score of query row `i` against key row `j` of head `(b, h)`. -/
def score (q k : S4x16x2048x64.Idx → EReal) (b : Fin 4) (h : Fin 16) (i j : Fin 2048) : EReal :=
  ∑ e : Fin 64, q (ix4 b h i e) * (k (ix4 b h j e) * scale)

/-- The reference's output at `(b, h, i, d)`: early-normalised attention of the row's scores over the value column. -/
def refRow (q k v : S4x16x2048x64.Idx → EReal) (b : Fin 4) (h : Fin 16) (i : Fin 2048) (d : Fin 64) : EReal :=
  Cert.Attend.early (fun j : Fin 2048 => score q k b h i j) (fun j : Fin 2048 => v (ix4 b h j d))

variable (q k v : (⟨S4x16x2048x64, .f32⟩ : BufTy).Contents (Elt Ideal))

theorem neg_inf : (FloatOps.ofBits .f32 0xFF800000#32 : Ideal .f32) = ⊥ := by
  show Ideal.ofBits .f32 0xFF800000#32 = ⊥
  simp [Ideal.ofBits, Ideal.ieee]

theorem v2_at (b : Fin 4) (h : Fin 16) (i j : Fin 2048) :
    val_main_v2 (F := Ideal) q k (ix4 b h i j) = score q k b h i j := by
  rw [val_main_v2_apply]
  unfold score
  refine Finset.sum_congr rfl fun e _ => ?_
  rw [val_main_v1_apply, val_main_v0_apply, val_main_cst_apply]
  have el : lidx_main_v2 (ix4 b h i j) e = ix4 b h i e := funext fun a => by
    match a with
    | ⟨0, _⟩ => rfl
    | ⟨1, _⟩ => rfl
    | ⟨2, _⟩ => rfl
    | ⟨3, _⟩ => rfl
  have er : ridx_main_v2 (ix4 b h i j) e = ix4 b h j e := funext fun a => by
    match a with
    | ⟨0, _⟩ => rfl
    | ⟨1, _⟩ => rfl
    | ⟨2, _⟩ => rfl
    | ⟨3, _⟩ => rfl
  rw [el, er]
  rfl

/-- The row maximum the reference's reduce takes, as the running maximum from `⊥`. -/
theorem v3_at (b : Fin 4) (h : Fin 16) (i : Fin 2048) :
    val_main_v3 (F := Ideal) q k (ix3 b h i)
      = (Finset.univ : Finset (Fin 2048)).fold max ⊥ (fun j => score q k b h i j) := by
  have hR : S4x16x2048x2048.Reduces [3] S4x16x2048 := by decide
  unfold val_main_v3
  have key := Host.reduce_eq_fold_single (α := EReal) (s := S4x16x2048x2048) (t := S4x16x2048) (a := 3) (u := S_)
    (max : EReal → EReal → EReal) (val_main_v2 (F := Ideal) q k) (val_main_cst_0 (F := Ideal))
    reducesTo_S4x16x2048x2048_S4x16x2048_d3 hR h_S_ (ix3 b h i)
  refine Eq.trans key ?_
  rw [val_main_cst_0_apply, neg_inf]
  refine congrArg (Finset.fold max ⊥ · Finset.univ) (funext fun j => ?_)
  refine Eq.trans (congrArg (val_main_v2 (F := Ideal) q k) ?_) (v2_at q k b h i j)
  funext a
  match a with
  | ⟨0, _⟩ => rfl
  | ⟨1, _⟩ => rfl
  | ⟨2, _⟩ => rfl
  | ⟨3, _⟩ => rfl

/-- The maximum softmax subtracts: the row maximum again (its maximum with `-∞` changes nothing). -/
theorem v7_at (b : Fin 4) (h : Fin 16) (i j : Fin 2048) :
    val_main_v7 (F := Ideal) q k (ix4 b h i j)
      = (Finset.univ : Finset (Fin 2048)).fold max ⊥ (fun j' => score q k b h i j') := by
  rw [val_main_v7_apply, val_main_v6_apply, val_main_v5_apply, val_main_v4_apply, val_main_cst_1_apply, neg_inf]
  have e : idx_main_v6 (idx_main_v7 (ix4 b h i j)) = ix3 b h i := funext fun a => by
    match a with
    | ⟨0, _⟩ => rfl
    | ⟨1, _⟩ => rfl
    | ⟨2, _⟩ => rfl
  rw [e, v3_at]
  show max ⊥ _ = _
  exact max_bot_left _

/-- The unnormalised weight. -/
theorem v9_at (b : Fin 4) (h : Fin 16) (i j : Fin 2048) :
    val_main_v9 (F := Ideal) q k (ix4 b h i j)
      = Ideal.exp (score q k b h i j - (Finset.univ : Finset (Fin 2048)).fold max ⊥ (fun j' => score q k b h i j')) := by
  rw [val_main_v9_apply, val_main_v8_apply, v2_at, v7_at]
  rfl

/-- The row's total weight. -/
theorem v12_at (b : Fin 4) (h : Fin 16) (i j : Fin 2048) :
    val_main_v12 (F := Ideal) q k (ix4 b h i j)
      = ∑ j' : Fin 2048, Ideal.exp (score q k b h i j' - (Finset.univ : Finset (Fin 2048)).fold max ⊥ (fun j'' => score q k b h i j'')) := by
  rw [val_main_v12_apply, val_main_v11_apply, val_main_v10_apply, val_main_cst_2_apply]
  show Ideal.ofBits .f32 0x00000000#32 + _ = _
  rw [Ideal.ofBits_zero_f32, zero_add]
  refine Finset.sum_congr rfl fun j' _ => ?_
  refine Eq.trans (congrArg (val_main_v9 (F := Ideal) q k) ?_) (v9_at q k b h i j')
  funext a
  match a with
  | ⟨0, _⟩ => rfl
  | ⟨1, _⟩ => rfl
  | ⟨2, _⟩ => rfl
  | ⟨3, _⟩ => rfl

/-- THE REFERENCE AT AN ELEMENT. -/
theorem v14_at (b : Fin 4) (h : Fin 16) (i : Fin 2048) (d : Fin 64) :
    val_main_v14 (F := Ideal) q k v (ix4 b h i d) = refRow q k v b h i d := by
  rw [val_main_v14_apply]
  unfold refRow Cert.Attend.early
  refine Finset.sum_congr rfl fun j _ => ?_
  have el : lidx_main_v14 (ix4 b h i d) j = ix4 b h i j := funext fun a => by
    match a with
    | ⟨0, _⟩ => rfl
    | ⟨1, _⟩ => rfl
    | ⟨2, _⟩ => rfl
    | ⟨3, _⟩ => rfl
  have er : ridx_main_v14 (ix4 b h i d) j = ix4 b h j d := funext fun a => by
    match a with
    | ⟨0, _⟩ => rfl
    | ⟨1, _⟩ => rfl
    | ⟨2, _⟩ => rfl
    | ⟨3, _⟩ => rfl
  rw [el, er, val_main_v13_apply, v9_at, v12_at]
  rfl

end Cert.ReferenceIdeal.Bridge

end
-- ==== Proof.Bridge.lean ====
/-
  The bridge: for real inputs the kernel's row and the reference's row are one number.

  Both take the scores `∑ e, q i e * k j e * 2⁻³` — the kernel scales the query, the reference the key, and
  multiplication on the extended reals is commutative and associative — and the same value column.  With real
  queries, keys and values the scores are real, so late and early normalisation agree (`Cert.Attend.late_eq_early`).
-/
import proofs.«428436_j6734508720466_3_alg».proof.Proof.KernelWhole
import proofs.«428436_j6734508720466_3_alg».proof.Proof.RefRead
import proofs.«428436_j6734508720466_3_alg».proof.Proof.RowLaw

noncomputable section

open scoped BigOperators

namespace Cert.Bridge

open Idealize.ShloMosaic Idealize.ShloMosaic.ValueIdx

/-- The scale literal denotes the real `1/8`. -/
theorem scale_real : Ideal.ofBits .f32 0x3E000000#32 = (((1 / 8 : ℝ)) : EReal) := by
  simp [Ideal.ofBits, Ideal.ieee, -EReal.coe_mul]; norm_num

/-- For real queries, keys and values the reference's row is the kernel's row. -/
theorem row_eq (q k v : Cert.KernelIdeal.S4x16x2048x64.Idx → EReal)
    (hq : ∀ i, ∃ r : ℝ, q i = (r : EReal)) (hk : ∀ i, ∃ r : ℝ, k i = (r : EReal)) (hv : ∀ i, ∃ r : ℝ, v i = (r : EReal))
    (b : Fin 4) (h : Fin 16) (i : Fin 2048) (d : Fin 64) :
    Cert.ReferenceIdeal.Bridge.refRow q k v b h i d = Cert.KernelIdeal.Whole.kerRow q k v b h i d := by
  choose q' hq' using hq
  choose k' hk' using hk
  choose v' hv' using hv
  unfold Cert.ReferenceIdeal.Bridge.refRow Cert.KernelIdeal.Whole.kerRow Cert.ReferenceIdeal.Bridge.score
  dsimp only [Cert.KernelIdeal.Whole.scale, Cert.ReferenceIdeal.Bridge.scale]
  have hs : ∀ j : Fin 2048, (∑ e : Fin 64, q (ix4 b h i e) * (k (ix4 b h j e) * Ideal.ofBits .f32 0x3E000000#32))
      = ((∑ e : Fin 64, q' (ix4 b h i e) * (k' (ix4 b h j e) * (1 / 8 : ℝ)) : ℝ) : EReal) := by
    intro j
    rw [← Cert.Attend.coe_sum]
    refine Finset.sum_congr rfl fun e _ => ?_
    rw [hq', hk', scale_real, ← EReal.coe_mul, ← EReal.coe_mul]
  have hs' : ∀ j : Fin 2048, (∑ e : Fin 64, (q (ix4 b h i e) * Ideal.ofBits .f32 0x3E000000#32) * k (ix4 b h j e))
      = ((∑ e : Fin 64, q' (ix4 b h i e) * (k' (ix4 b h j e) * (1 / 8 : ℝ)) : ℝ) : EReal) := by
    intro j
    rw [← hs j]
    refine Finset.sum_congr rfl fun e _ => ?_
    rw [mul_assoc, mul_comm (Ideal.ofBits .f32 0x3E000000#32)]
  simp only [hs, hs', hv']
  exact (Cert.Attend.late_eq_early _ _).symm

end Cert.Bridge

end
-- ==== Proof.Finite.lean ====
/-
  Finiteness: what the precondition gives.

  The precondition is the conjunction, over the three arguments, of "every element's absolute value is below
  `+∞`".  An extended real whose absolute value is below `+∞` is neither `+∞` nor `-∞`: it is a real.
-/
import proofs.«428436_j6734508720466_3_alg».proof.Pre_finite_inputs
import proofs.«428436_j6734508720466_3_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic Idealize.ShloMosaic.ValueIdx

instance : Subsingleton S_.Idx := ⟨fun a b => funext fun d => d.elim0⟩

/-- An extended real whose absolute value compares below `+∞` is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- One argument's conjunct of the precondition makes every element of that argument a real. -/
theorem real_of_all (x : FVec Ideal S4x16x2048x64 .f32)
    (h : Host.reduce IntOp.andi
        (cmpf .olt (Host.absf x) (broadcastInDim S4x16x2048x64 ![] bcast_S_S4x16x2048x64 (constant (F := Ideal) S_ .f32 0x7F800000#32)))
        (constantI S_ 1 1#1) reducesTo_S4x16x2048x64_S_d0_1_2_3 h_S_ ix0 = 1#1)
    (i : S4x16x2048x64.Idx) : ∃ r : ℝ, x i = (r : EReal) :=
  real_of_abs_lt (x i) (Host.reduce_andi_all _ _ _ _ ix0 h i)

/-- THE PRECONDITION, READ: every element of every argument is a real. -/
theorem reals_of_pre (x0 x1 x2 : FVec Ideal S4x16x2048x64 .f32) (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [fn] at h0
  obtain ⟨h01, h2⟩ := IntOp.andi_eq_one.mp h0
  obtain ⟨h0', h1⟩ := IntOp.andi_eq_one.mp h01
  exact ⟨real_of_all x0 h0', real_of_all x1 h1, real_of_all x2 h2⟩

end Cert.Pre_finite_inputs.Finite

end
-- ==== Proof.lean ====
/-
  Scaled dot-product attention, `softmax (q kᵀ / 8) v` over 4 × 16 heads of 2048 rows and 64 columns: the kernel
  against its jnp reference, over the extended reals.

  The kernel scales the queries by `2⁻³`, works per head on blocks of 1024 query rows against all 2048 keys, takes
  the exponential of each score less its row's maximum, and divides the weighted sum of the values by the row's
  total weight AFTER the sum.  The reference scales the keys instead, and its softmax divides each weight by the
  row's total BEFORE the weighted sum.  Changes of float format, the order of the sums and the tiling are not
  differences on the extended reals.  The scores agree because multiplication there is commutative and associative;
  the two normalisations agree because, for finite inputs, every weight is a positive real and so is their total,
  and dividing by a nonzero real distributes over a finite sum of reals (`Cert.Attend.late_eq_early`): this is where
  the precondition, every input finite, is used.

  The kernel's value is read off its frame run: the body's stored block at an element (Proof/Payload.lean), the
  128 blocks tiling the output array (Proof/KernelArray.lean), the host's merge of the batch and head axes, the
  transposition of the keys and the split of the result (Proof/KernelWhole.lean).  The reference's value is its run
  read one operation at a time (Proof/RefRead.lean).  No operation of the kernel is replaced for its reading at the
  extended reals, so that reading is the kernel's own text and nothing is owed for it.
-/
import proofs.«428436_j6734508720466_3_alg».proof.Defs
import proofs.«428436_j6734508720466_3_alg».proof.Proof.Gen.Kernel
import proofs.«428436_j6734508720466_3_alg».proof.Proof.Gen.Kernel.Skeleton
import proofs.«428436_j6734508720466_3_alg».proof.Proof.Gen.Kernel.Launch
import proofs.«428436_j6734508720466_3_alg».proof.Proof.Gen.Kernel.Points
import proofs.«428436_j6734508720466_3_alg».proof.Proof.Gen.Kernel.Frame
import proofs.«428436_j6734508720466_3_alg».proof.Proof.Gen.KernelIdeal
import proofs.«428436_j6734508720466_3_alg».proof.Proof.Gen.KernelIdeal.Skeleton
import proofs.«428436_j6734508720466_3_alg».proof.Proof.Gen.KernelIdeal.Launch
import proofs.«428436_j6734508720466_3_alg».proof.Proof.Gen.KernelIdeal.Points
import proofs.«428436_j6734508720466_3_alg».proof.Proof.Gen.KernelIdeal.Frame
import proofs.«428436_j6734508720466_3_alg».proof.Proof.Gen.ReferenceIdeal
import proofs.«428436_j6734508720466_3_alg».proof.Proof.Gen.ReferenceIdeal.Run
import proofs.«428436_j6734508720466_3_alg».proof.Proof.Gen.ReferenceIdeal.Read
import proofs.«428436_j6734508720466_3_alg».proof.Proof.Gen.Pre_finite_inputs
import proofs.«428436_j6734508720466_3_alg».proof.Proof.Bridge
import proofs.«428436_j6734508720466_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel's run leaves
    `kerOut` of the arguments, the reference's run its composed term, and for finite arguments the two are equal
    element by element (`Cert.Bridge.row_eq`). -/
theorem algebraic : Cert.algebraic_KernelIdeal_ReferenceIdeal := by
  intro m ρ m' ρ' hpre hagree
  refine ⟨fun c => Cert.KernelIdeal.Whole.kerOut (Cert.KernelIdeal.Whole.qArr m c) (Cert.KernelIdeal.Whole.kArr m c)
    (Cert.KernelIdeal.Whole.vArr m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq _ _ _).trans ?_
  rw [(hagree c).1, (hagree c).2.1, (hagree c).2.2]
  obtain ⟨hq, hk, hv⟩ := Cert.Pre_finite_inputs.Finite.reals_of_pre _ _ _ (hpre c)
  funext i
  obtain ⟨b, h, r, d, rfl⟩ : ∃ (b : Fin 4) (h : Fin 16) (r : Fin 2048) (d : Fin 64), i = ix4 b h r d :=
    ⟨i 0, i 1, i 2, i 3, eq_ix4 i⟩
  rw [Cert.ReferenceIdeal.Bridge.v14_at]
  exact Cert.Bridge.row_eq _ _ _ hq hk hv b h r d

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
